-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S32x16 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S3200000 32) (main_arg2 : IVec S3200000 32) (main_arg3 : FVec F S3200000 .f32) (main_arg4 : FVec F S512x32 .f32) (main_arg5 : FVec F S32 .f32) (main_arg6 : FVec F S32x16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S100000x16 : Shape := ⟨2, ![100000, 16]⟩
abbrev S5000x512 : Shape := ⟨2, ![5000, 512]⟩
abbrev S5000x16 : Shape := ⟨2, ![5000, 16]⟩
abbrev S5000x32 : Shape := ⟨2, ![5000, 32]⟩
abbrev S3200000x1 : Shape := ⟨2, ![3200000, 1]⟩
abbrev S_ : Shape := ⟨0, ![]⟩
abbrev S3200000x16 : Shape := ⟨2, ![3200000, 16]⟩

abbrev nBuf : Space → Nat
  | .hbm => 27
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x32, .f32⟩
  | .hbm, ⟨9, _⟩ => ⟨S1x16, .f32⟩
  | .hbm, ⟨10, _⟩ => ⟨S100000x16, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  shapeCasts_S16_S1x16 : S16.ShapeCasts S1x16
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S5000x512_S512x32_S5000x32_1_0_0_1_n_n_wf : DotDims.WF S5000x512 S512x32 S5000x32 [1] [0] [0] [1] [] []
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)

variable [Facts₀]

def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x32 : Shape := ⟨2, ![100000, 32]⟩
abbrev S1x32 : Shape := ⟨2, ![1, 32]⟩
abbrev S_ : Shape := ⟨0, ![]⟩
abbrev S100000x16 : Shape := ⟨2, ![100000, 16]⟩
abbrev S1x16 : Shape := ⟨2, ![1, 16]⟩
abbrev S3200000x1 : Shape := ⟨2, ![3200000, 1]⟩
abbrev S3200000x16 : Shape := ⟨2, ![3200000, 16]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S100000x32, .f32⟩
  | .hbm, ⟨9, _⟩ => ⟨S1x32, .f32⟩
  | .hbm, ⟨10, _⟩ => ⟨S100000x32, .f32⟩
  | .hbm, ⟨11, _⟩ => ⟨S100000x32, .f32⟩
  | .hbm, ⟨12, _⟩ => ⟨S_, .f32⟩
  | .hbm, ⟨13, _⟩ => ⟨S100000x32, .f32⟩
  | .hbm, ⟨14, _⟩ => ⟨S100000x32, .f32⟩
  | .hbm, ⟨15, _⟩ => ⟨S100000x16, .f32⟩
  | .hbm, ⟨16, _⟩ => ⟨S1x16, .f32⟩
  | .hbm, ⟨17, _⟩ => ⟨S100000x16, .f32⟩
  | .hbm, ⟨18, _⟩ => ⟨S100000x16, .f32⟩
  | .hbm, ⟨19, _⟩ => ⟨S3200000x1, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S3200000x16, .f32⟩
  | .hbm, ⟨30, _⟩ => ⟨S3200000x16, .f32⟩
  | .hbm, ⟨31, _⟩ => ⟨S_, .f32⟩
  | .hbm, ⟨32, _⟩ => ⟨S100000x16, .f32⟩
  | .hbm, ⟨33, _⟩ => ⟨S3200000x1, .i32⟩
  | .hbm, ⟨34, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S100000x512_S512x32_S100000x32_1_0_0_1_n_n_wf : DotDims.WF S100000x512 S512x32 S100000x32 [1] [0] [0] [1] [] []
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.NodeMlp.lean ====
/-
  The dense stage of the graph layer, as mathematics. Every node carries a feature row of length 512; a first
  affine map takes it to 32 hidden units, each clamped below at zero; a second affine map takes the hidden units to
  16 outputs. Over the extended reals, with exact sums and products:

    hidden k = max (Σ l, row l · W1 (l, k) + b1 k) 0        out q = Σ k, hidden k · W2 (k, q) + b2 q

  The zero of the clamp is kept as the word both programs print for it; nothing below needs its value. The whole
  array of node outputs (`nodes`) applies `out` to each row of the feature matrix. Both programs are shown to compute
  `nodes` of their arguments; what either does with the node outputs afterwards (the weighted sum over the edges)
  is the same operation on both sides and is never opened.
-/
import Idealize.ShloMosaic.PureOps.Ideal
import Idealize.ShloMosaic.Lib.ValueIdx

noncomputable section

open scoped BigOperators

namespace Cert.NodeMlp

open Idealize.ShloMosaic Idealize.ShloMosaic.ValueIdx

/-- Hidden unit `k` of one node: its feature row against column `k` of the first weight matrix, plus the first
    bias, clamped below at zero. -/
def hidden (row : Fin 512 → EReal) (w1 : FVec Ideal ⟨2, ![512, 32]⟩ .f32) (b1 : Fin 32 → EReal) (k : Fin 32) : EReal :=
  max ((∑ l : Fin 512, row l * w1 (ix2 l k)) + b1 k) (Ideal.ofBits .f32 0x00000000#32)

/-- Output `q` of one node: its hidden units against column `q` of the second weight matrix, plus the second bias. -/
def out (row : Fin 512 → EReal) (w1 : FVec Ideal ⟨2, ![512, 32]⟩ .f32) (b1 : Fin 32 → EReal)
    (w2 : FVec Ideal ⟨2, ![32, 16]⟩ .f32) (b2 : Fin 16 → EReal) (q : Fin 16) : EReal :=
  (∑ k : Fin 32, hidden row w1 b1 k * w2 (ix2 k q)) + b2 q

/-- The node outputs of the whole graph: entry `(r, q)` is output `q` of node `r`'s feature row. -/
def nodes (feat : FVec Ideal ⟨2, ![100000, 512]⟩ .f32) (w1 : FVec Ideal ⟨2, ![512, 32]⟩ .f32) (b1 : FVec Ideal ⟨1, ![32]⟩ .f32)
    (w2 : FVec Ideal ⟨2, ![32, 16]⟩ .f32) (b2 : FVec Ideal ⟨1, ![16]⟩ .f32) : FVec Ideal ⟨2, ![100000, 16]⟩ .f32 :=
  fun i => out (fun l => feat (ix2 (i 0) l)) w1 (fun k => b1 (ix1 k)) w2 (fun q => b2 (ix1 q)) (i 1)

/-- At an index given by its coordinates. -/
theorem nodes_apply (feat : FVec Ideal ⟨2, ![100000, 512]⟩ .f32) (w1 : FVec Ideal ⟨2, ![512, 32]⟩ .f32) (b1 : FVec Ideal ⟨1, ![32]⟩ .f32)
    (w2 : FVec Ideal ⟨2, ![32, 16]⟩ .f32) (b2 : FVec Ideal ⟨1, ![16]⟩ .f32) (r : Fin 100000) (q : Fin 16) :
    nodes feat w1 b1 w2 b2 (ix2 r q) = out (fun l => feat (ix2 r l)) w1 (fun k => b1 (ix1 k)) w2 (fun q => b2 (ix1 q)) q := rfl

end Cert.NodeMlp

end
-- ==== Proof.RefNode.lean ====
/-
  The reference computes the node outputs of Proof/NodeMlp.lean, and then aggregates them over the edges.

  Its first eleven host operations are two `dot_general`s with one contracted axis each, two biases broadcast over
  the rows, and a maximum with a broadcast zero. Read at an index (the generated stage lemmas), the first product at
  (r, k) is the sum over l of feature (r, l) times W1 (l, k), the bias at (r, k) is b1 k, the clamp is the maximum with
  the zero word, and the second product and bias repeat the shape: exactly `NodeMlp.nodes`. What is left to say here is
  that the index maps the stage lemmas compose are the plain coordinates.

  The remaining operations (wrap a negative source index, gather the source rows, scale by the edge weight,
  scatter-add into the destination rows) are one function `aggregate` of the node outputs and the three edge arrays:
  the reference's result is `aggregate` of `nodes`.
-/
import proofs.«156494_j35957466202228_1_alg».proof.Proof.Gen.ReferenceIdeal.Read
import proofs.«156494_j35957466202228_1_alg».proof.Proof.NodeMlp

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's node outputs (its value `%8`) are `NodeMlp.nodes` of its five dense arguments. -/
theorem nodes_eq (x0 : (⟨S100000x512, .f32⟩ : BufTy).Contents (Elt Ideal)) (x4 : (⟨S512x32, .f32⟩ : BufTy).Contents (Elt Ideal))
    (x5 : (⟨S32, .f32⟩ : BufTy).Contents (Elt Ideal)) (x6 : (⟨S32x16, .f32⟩ : BufTy).Contents (Elt Ideal))
    (x7 : (⟨S16, .f32⟩ : BufTy).Contents (Elt Ideal)) :
    val_main_v8 (F := Ideal) x0 x4 x5 x6 x7 = Cert.NodeMlp.nodes x0 x4 x5 x6 x7 := by
  funext i
  obtain ⟨r, q, rfl⟩ : ∃ (r : Fin 100000) (q : Fin 16), i = ix2 r q := ⟨i 0, i 1, eq_ix2 i⟩
  -- the composed index maps are the coordinates
  have e1 : ∀ (k : Fin 32) (l : Fin 512), lidx_main_v0 (lidx_main_v5 (ix2 r q) k) l = ix2 r l := fun k l =>
    funext fun a => Fin.ext (by match a with | ⟨0, _⟩ => rfl | ⟨1, _⟩ => rfl)
  have e2 : ∀ (k : Fin 32) (l : Fin 512), ridx_main_v0 (lidx_main_v5 (ix2 r q) k) l = ix2 l k := fun k l =>
    funext fun a => Fin.ext (by match a with | ⟨0, _⟩ => rfl | ⟨1, _⟩ => rfl)
  have e3 : ∀ k : Fin 32, idx_main_v1 (idx_main_v2 (lidx_main_v5 (ix2 r q) k)) = ix1 k := fun k =>
    funext fun a => Fin.ext (by match a with | ⟨0, _⟩ => rfl)
  have e4 : ∀ k : Fin 32, ridx_main_v5 (ix2 r q) k = ix2 k q := fun k =>
    funext fun a => Fin.ext (by match a with | ⟨0, _⟩ => rfl | ⟨1, _⟩ => rfl)
  have e5 : idx_main_v6 (idx_main_v7 (ix2 r q)) = ix1 q :=
    funext fun a => Fin.ext (by match a with | ⟨0, _⟩ => rfl)
  rw [val_main_v8_apply, val_main_v5_apply, val_main_v7_apply, val_main_v6_apply, e5]
  simp only [val_main_v4_apply, val_main_v3_apply, val_main_v0_apply, val_main_v2_apply, val_main_v1_apply,
    val_main_call0_v0_apply, val_main_call0_cst_apply, e1, e2, e3, e4]
  rfl

variable {F : FTy → Type} [FloatOps F]

/-- The aggregation over the edges as ONE function of the node outputs `X` and the three edge arrays (destination
    row, source column, weight): a negative source index is wrapped by the number of nodes, row `col e` of `X` is
    gathered for every edge `e` and scaled by `w e`, and the scaled rows are added into a zero array at row `row e`. -/
def aggregate (X : (⟨S100000x16, .f32⟩ : BufTy).Contents (Elt F)) (x1 x2 : (⟨S3200000, .i32⟩ : BufTy).Contents (Elt F))
    (x3 : (⟨S3200000, .f32⟩ : BufTy).Contents (Elt F)) : (⟨S100000x16, .f32⟩ : BufTy).Contents (Elt F) :=
  Host.scatterAdd scatter_S100000x16_S3200000x1_S3200000x16_1_0_0_1 (val_main_v19 (F := F)) (val_main_v20 (F := F) x1)
    (mulf (val_main_v17 (F := F) x3) (Host.gather gather_S100000x16_S3200000x1_S3200000x16_1_0_n_n_0_1_116 X (val_main_v15 (F := F) x2)))

/-- The reference's result is the aggregation of its node outputs. -/
theorem result_eq (x0 : (⟨S100000x512, .f32⟩ : BufTy).Contents (Elt F)) (x1 x2 : (⟨S3200000, .i32⟩ : BufTy).Contents (Elt F))
    (x3 : (⟨S3200000, .f32⟩ : BufTy).Contents (Elt F)) (x4 : (⟨S512x32, .f32⟩ : BufTy).Contents (Elt F))
    (x5 : (⟨S32, .f32⟩ : BufTy).Contents (Elt F)) (x6 : (⟨S32x16, .f32⟩ : BufTy).Contents (Elt F))
    (x7 : (⟨S16, .f32⟩ : BufTy).Contents (Elt F)) :
    val_main_v21 (F := F) x0 x1 x2 x3 x4 x5 x6 x7 = aggregate (val_main_v8 (F := F) x0 x4 x5 x6 x7) x1 x2 x3 := by
  unfold val_main_v21 val_main_v18 val_main_v16 aggregate
  rfl

end Cert.ReferenceIdeal.RefValue

end
-- ==== Proof.KernelBlock.lean ====
/-
  One grid point of the kernel computes the node outputs of the 5000 rows it holds.

  The body loads a block of 5000 feature rows, both weight matrices and both biases (each bias as one row), and
  stores ONE value: the second matrix product plus the second bias, where the second product's left operand is the
  first product plus the first bias, clamped below at zero. The changes of float format around the products are the
  identity on extended reals, a matrix product into a zero accumulator is the plain sum over the contracted
  coordinate, a bias row broadcast over the rows reads the row, and the clamp is a maximum. So entry (p, q) of the
  stored value is `NodeMlp.out` of row p of the feature block.
-/
import proofs.«156494_j35957466202228_1_alg».proof.Proof.Gen.KernelIdeal.Skeleton
import proofs.«156494_j35957466202228_1_alg».proof.Proof.NodeMlp
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.NodeValue

open Cert.KernelIdeal Cert.KernelIdeal.Gen Idealize.ShloMosaic Idealize.ShloMosaic.ValueIdx

/-! ## The two matrix products at an index

Each product contracts the left operand's second axis with the right operand's first; the operand indices at
output index (p, c) and contraction coordinate k are (p, k) and (k, c). -/

theorem lhs_fc1_0 (i : S5000x32.Idx) (q : dot_S5000x512_S512x32_S5000x32_1_0_0_1_n_n.contr.Idx) :
    (dot_S5000x512_S512x32_S5000x32_1_0_0_1_n_n.lhsIdx i q 0).val = (i 0).val := by
  unfold DotDims.lhsIdx
  rw [dif_neg (show ¬(0 : Fin S5000x512.rank) ∈ dot_S5000x512_S512x32_S5000x32_1_0_0_1_n_n.lhsBatch by decide), dif_pos (show (0 : Fin S5000x512.rank) ∈ dot_S5000x512_S512x32_S5000x32_1_0_0_1_n_n.lhsNonContracting by decide)]
  rfl
theorem lhs_fc1_1 (i : S5000x32.Idx) (q : dot_S5000x512_S512x32_S5000x32_1_0_0_1_n_n.contr.Idx) :
    (dot_S5000x512_S512x32_S5000x32_1_0_0_1_n_n.lhsIdx i q 1).val = (q ⟨0, by decide⟩).val :=
  dot_S5000x512_S512x32_S5000x32_1_0_0_1_n_n.lhsIdx_val_of_single rfl i q
theorem rhs_fc1_0 (i : S5000x32.Idx) (q : dot_S5000x512_S512x32_S5000x32_1_0_0_1_n_n.contr.Idx) :
    (dot_S5000x512_S512x32_S5000x32_1_0_0_1_n_n.rhsIdx i q 0).val = (q ⟨0, by decide⟩).val :=
  dot_S5000x512_S512x32_S5000x32_1_0_0_1_n_n.rhsIdx_val_of_single rfl i q
theorem rhs_fc1_1 (i : S5000x32.Idx) (q : dot_S5000x512_S512x32_S5000x32_1_0_0_1_n_n.contr.Idx) :
    (dot_S5000x512_S512x32_S5000x32_1_0_0_1_n_n.rhsIdx i q 1).val = (i 1).val := by
  unfold DotDims.rhsIdx
  rw [dif_neg (show ¬(1 : Fin S512x32.rank) ∈ dot_S5000x512_S512x32_S5000x32_1_0_0_1_n_n.rhsBatch by decide), dif_pos (show (1 : Fin S512x32.rank) ∈ dot_S5000x512_S512x32_S5000x32_1_0_0_1_n_n.rhsNonContracting by decide)]
  rfl

theorem lhs_fc2_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs_fc2_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhs_fc2_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhs_fc2_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- The first product into a zero accumulator, at (p, c): the sum over the 512 features. -/
theorem fc1_apply {φ₁ φ₂ : FTy} (A : FVec Ideal S5000x512 φ₁) (B : FVec Ideal S512x32 φ₂) (p : Fin 5000) (c : Fin 32) :
    matmul dot_S5000x512_S512x32_S5000x32_1_0_0_1_n_n none A B (constant (F := Ideal) S5000x32 .f32 0x00000000#32) (ix2 p c)
      = ∑ k : Fin 512, A (ix2 p k) * B (ix2 k c) := by
  simp only [matmul]
  rw [Ideal.matmul_constant_zero_apply, ← Equiv.sum_comp (contrEquiv1 dot_S5000x512_S512x32_S5000x32_1_0_0_1_n_n 512 rfl rfl).symm]
  refine Finset.sum_congr rfl fun k _ => ?_
  have hk := contrEquiv1_symm_val dot_S5000x512_S512x32_S5000x32_1_0_0_1_n_n 512 rfl rfl k
  have el : dot_S5000x512_S512x32_S5000x32_1_0_0_1_n_n.lhsIdx (ix2 p c) ((contrEquiv1 dot_S5000x512_S512x32_S5000x32_1_0_0_1_n_n 512 rfl rfl).symm k) = ix2 p k := funext fun a => Fin.ext (by
    match a with
    | ⟨0, _⟩ => exact lhs_fc1_0 _ _
    | ⟨1, _⟩ => exact (lhs_fc1_1 _ _).trans hk)
  have er : dot_S5000x512_S512x32_S5000x32_1_0_0_1_n_n.rhsIdx (ix2 p c) ((contrEquiv1 dot_S5000x512_S512x32_S5000x32_1_0_0_1_n_n 512 rfl rfl).symm k) = ix2 k c := funext fun a => Fin.ext (by
    match a with
    | ⟨0, _⟩ => exact (rhs_fc1_0 _ _).trans hk
    | ⟨1, _⟩ => exact rhs_fc1_1 _ _)
  rw [el, er]

/-- The second product into a zero accumulator, at (p, c): the sum over the 32 hidden units. -/
theorem fc2_apply {φ₁ φ₂ : FTy} (A : FVec Ideal S5000x32 φ₁) (B : FVec Ideal S32x16 φ₂) (p : Fin 5000) (c : Fin 16) :
    matmul dot_S5000x32_S32x16_S5000x16_1_0_0_1_n_n none A B (constant (F := Ideal) S5000x16 .f32 0x00000000#32) (ix2 p c)
      = ∑ k : Fin 32, A (ix2 p k) * B (ix2 k c) := by
  simp only [matmul]
  rw [Ideal.matmul_constant_zero_apply, ← Equiv.sum_comp (contrEquiv1 dot_S5000x32_S32x16_S5000x16_1_0_0_1_n_n 32 rfl rfl).symm]
  refine Finset.sum_congr rfl fun k _ => ?_
  have hk := contrEquiv1_symm_val dot_S5000x32_S32x16_S5000x16_1_0_0_1_n_n 32 rfl rfl k
  have el : dot_S5000x32_S32x16_S5000x16_1_0_0_1_n_n.lhsIdx (ix2 p c) ((contrEquiv1 dot_S5000x32_S32x16_S5000x16_1_0_0_1_n_n 32 rfl rfl).symm k) = ix2 p k := funext fun a => Fin.ext (by
    match a with
    | ⟨0, _⟩ => exact lhs_fc2_0 _ _
    | ⟨1, _⟩ => exact (lhs_fc2_1 _ _).trans hk)
  have er : dot_S5000x32_S32x16_S5000x16_1_0_0_1_n_n.rhsIdx (ix2 p c) ((contrEquiv1 dot_S5000x32_S32x16_S5000x16_1_0_0_1_n_n 32 rfl rfl).symm k) = ix2 k c := funext fun a => Fin.ext (by
    match a with
    | ⟨0, _⟩ => exact (rhs_fc2_0 _ _).trans hk
    | ⟨1, _⟩ => exact rhs_fc2_1 _ _)
  rw [el, er]

/-! ## The biases -/

/-- The first bias, loaded as one row of 32 and broadcast over the 5000 rows, reads that row. -/
theorem bias1_apply (v : FVec Ideal S1x32 .f32) (p : Fin 5000) (k : Fin 32) :
    broadcastTo S5000x32 (shapeCast S1x32 v shapeCasts_S1x32_S1x32) broadcasts_S1x32_S5000x32 (ix2 p k) = v (ix2 (0 : Fin 1) k) := by
  rw [shapeCast_self]
  exact broadcastTo_1b_ab_apply v broadcasts_S1x32_S5000x32 p k

/-- The second bias likewise, one row of 16. -/
theorem bias2_apply (v : FVec Ideal S1x16 .f32) (p : Fin 5000) (q : Fin 16) :
    broadcastTo S5000x16 (shapeCast S1x16 v shapeCasts_S1x16_S1x16) broadcasts_S1x16_S5000x16 (ix2 p q) = v (ix2 (0 : Fin 1) q) := by
  rw [shapeCast_self]
  exact broadcastTo_1b_ab_apply v broadcasts_S1x16_S5000x16 p q

/-! ## The hidden layer and the stored value -/

/-- The block's hidden activations as the body computes them: the first product plus the first bias, clamped. -/
def hiddenBlk (x0 : FVec Ideal S5000x512 .f32) (x1 : FVec Ideal S512x32 .f32) (x2 : FVec Ideal S1x32 .f32) : FVec Ideal S5000x32 .f32 :=
  maximumf (addf (matmul dot_S5000x512_S512x32_S5000x32_1_0_0_1_n_n none (truncf .bf16 x0 bitsLt_bf16_f32) (truncf .bf16 x1 bitsLt_bf16_f32) (constant (F := Ideal) S5000x32 .f32 0x00000000#32))
      (broadcastTo S5000x32 (shapeCast S1x32 x2 shapeCasts_S1x32_S1x32) broadcasts_S1x32_S5000x32))
    (broadcast S5000x32 (Scalar.ofBits (F := Ideal) .f32 0x00000000#32))

/-- Hidden activation (p, k) of the block is hidden unit k of row p. -/
theorem hiddenBlk_apply (x0 : FVec Ideal S5000x512 .f32) (x1 : FVec Ideal S512x32 .f32) (x2 : FVec Ideal S1x32 .f32) (p : Fin 5000) (k : Fin 32) :
    hiddenBlk x0 x1 x2 (ix2 p k) = Cert.NodeMlp.hidden (fun l => x0 (ix2 p l)) x1 (fun k => x2 (ix2 (0 : Fin 1) k)) k := by
  show max (matmul dot_S5000x512_S512x32_S5000x32_1_0_0_1_n_n none (truncf .bf16 x0 bitsLt_bf16_f32) (truncf .bf16 x1 bitsLt_bf16_f32) (constant (F := Ideal) S5000x32 .f32 0x00000000#32) (ix2 p k)
        + broadcastTo S5000x32 (shapeCast S1x32 x2 shapeCasts_S1x32_S1x32) broadcasts_S1x32_S5000x32 (ix2 p k))
      (Ideal.ofBits .f32 0x00000000#32) = _
  rw [fc1_apply, bias1_apply]
  rfl

/-- The value the body stores is the second product of the hidden activations, plus the second bias. -/
theorem pay_eq (x0 : FVec Ideal S5000x512 .f32) (x1 : FVec Ideal S512x32 .f32) (x2 : FVec Ideal S1x32 .f32)
    (x3 : FVec Ideal S32x16 .f32) (x4 : FVec Ideal S1x16 .f32) :
    k0_pay1 (F := Ideal) x0 x1 x2 x3 x4
      = addf (matmul dot_S5000x32_S32x16_S5000x16_1_0_0_1_n_n none (truncf .bf16 (hiddenBlk x0 x1 x2) bitsLt_bf16_f32) (truncf .bf16 x3 bitsLt_bf16_f32) (constant (F := Ideal) S5000x16 .f32 0x00000000#32))
          (broadcastTo S5000x16 (shapeCast S1x16 x4 shapeCasts_S1x16_S1x16) broadcasts_S1x16_S5000x16) := rfl

/-- ENTRY (p, q) OF THE STORED VALUE is output q of row p of the feature block. -/
theorem pay_apply (x0 : FVec Ideal S5000x512 .f32) (x1 : FVec Ideal S512x32 .f32) (x2 : FVec Ideal S1x32 .f32)
    (x3 : FVec Ideal S32x16 .f32) (x4 : FVec Ideal S1x16 .f32) (p : Fin 5000) (q : Fin 16) :
    k0_pay1 (F := Ideal) x0 x1 x2 x3 x4 (ix2 p q)
      = Cert.NodeMlp.out (fun l => x0 (ix2 p l)) x1 (fun k => x2 (ix2 (0 : Fin 1) k)) x3 (fun q => x4 (ix2 (0 : Fin 1) q)) q := by
  rw [pay_eq]
  show matmul dot_S5000x32_S32x16_S5000x16_1_0_0_1_n_n none (truncf .bf16 (hiddenBlk x0 x1 x2) bitsLt_bf16_f32) (truncf .bf16 x3 bitsLt_bf16_f32) (constant (F := Ideal) S5000x16 .f32 0x00000000#32) (ix2 p q)
      + broadcastTo S5000x16 (shapeCast S1x16 x4 shapeCasts_S1x16_S1x16) broadcasts_S1x16_S5000x16 (ix2 p q) = _
  rw [fc2_apply, bias2_apply]
  unfold Cert.NodeMlp.out
  refine congrArg (· + x4 (ix2 (0 : Fin 1) q)) (Finset.sum_congr rfl fun k _ => ?_)
  show hiddenBlk x0 x1 x2 (ix2 p k) * x3 (ix2 k q) = _
  rw [hiddenBlk_apply]

end Cert.KernelIdeal.NodeValue

end
-- ==== Proof.KernelNodes.lean ====
/-
  The array of node outputs after the kernel's one region.

  The grid has 20 points; point t holds rows 5000·t … 5000·t + 4999 of the feature matrix (block index (t, 0)), both
  weight matrices and both bias rows whole (block index (0, 0) at every point), and writes back rows
  5000·t … 5000·t + 4999 of the output. The bias rows are the length-32 and length-16 bias vectors reshaped to one
  row by the two host operations before the region. So what point t writes back is block t of `NodeMlp.nodes` of the
  five dense arguments (entry by entry: Proof/KernelBlock.lean), the 20 blocks cover the 100000 rows, and the array
  ends holding `NodeMlp.nodes`.
-/
import proofs.«156494_j35957466202228_1_alg».proof.Proof.Gen.KernelIdeal.Frame
import proofs.«156494_j35957466202228_1_alg».proof.Proof.KernelBlock
import Idealize.ShloMosaic.Lib.Pipeline.Value
import Idealize.ShloMosaic.Lib.StableHlo.Run

set_option maxRecDepth 16384

noncomputable section

open scoped BigOperators

namespace Cert.KernelIdeal.NodeValue

open Cert.KernelIdeal Cert.KernelIdeal.Gen Idealize.ShloMosaic Idealize.ShloMosaic.TcCoe Idealize.ShloMosaic.Tactic
open Idealize.ShloMosaic.ValueIdx Idealize.SL Idealize.SL.Sem
open Idealize.ShloMosaic.Pipeline (Dat Cfg Window)

variable (m : (ℓ : Loc nD τ sig) → Buf (Elt Ideal) ℓ)

/-- The node outputs of the launch contents of the five dense arguments. -/
abbrev nodesOf (c : Dev nD) : S100000x16.Idx → Elt Ideal .f32 :=
  Cert.NodeMlp.nodes (m ((c : Thread nD τ).loc main_arg0)) (m ((c : Thread nD τ).loc main_arg4)) (m ((c : Thread nD τ).loc main_arg5))
    (m ((c : Thread nD τ).loc main_arg6)) (m ((c : Thread nD τ).loc main_arg7))

/-! ## The blocks a point holds, by their literal types -/

abbrev featBlk (c : Dev nD) (t : Fin cfg0.N) : FVec Ideal S5000x512 .f32 := iblk m c 0 t
abbrev w1Blk (c : Dev nD) (t : Fin cfg0.N) : FVec Ideal S512x32 .f32 := iblk m c 1 t
abbrev b1Blk (c : Dev nD) (t : Fin cfg0.N) : FVec Ideal S1x32 .f32 := iblk m c 2 t
abbrev w2Blk (c : Dev nD) (t : Fin cfg0.N) : FVec Ideal S32x16 .f32 := iblk m c 3 t
abbrev b2Blk (c : Dev nD) (t : Fin cfg0.N) : FVec Ideal S1x16 .f32 := iblk m c 4 t

theorem hz : (![0, 0] : Fin 2 → Nat) = fun _ => 0 := funext fun a => by fin_cases a <;> rfl

/-- The printed index maps, decided over the 20 points: the feature block moves with the output block along the
    rows, every other input stays at block (0, 0), and the output's block index is the point's number. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every block of rows is some point's. -/
theorem idx_onto : ∀ b : Fin 20, ∃ t : Fin cfg0.N, win0_5.index t = ![b.val, 0] :=
  (by decide +kernel : ∀ b : Fin 20, ∃ t : Fin grid0.N, win0_5.index t = ![b.val, 0])

/-! ## The bias rows: the two reshapes before the region -/

/-- The first bias row as the region finds it is the first bias vector, reshaped. -/
theorem V_bias1 (c : Dev nD) :
    (V m c main_v0 : S1x32.Idx → Elt Ideal .f32) = shapeCast S1x32 (m ((c : Thread nD τ).loc main_arg5)) shapeCasts_S32_S1x32 := by
  show StableHlo.after hostOps0 (fun b => m (c, b)) (Proc.devRef .tc main_v0) = _
  after_results
  rfl

/-- The second bias row likewise. -/
theorem V_bias2 (c : Dev nD) :
    (V m c main_v1 : S1x16.Idx → Elt Ideal .f32) = shapeCast S1x16 (m ((c : Thread nD τ).loc main_arg7)) shapeCasts_S16_S1x16 := by
  show StableHlo.after hostOps0 (fun b => m (c, b)) (Proc.devRef .tc main_v1) = _
  after_results
  rfl

/-! ## Each input block read where the output's rows say -/

/-- Row p of point t's feature block is row r of the feature matrix, r the row of the output block's entry. -/
theorem featBlk_apply (c : Dev nD) (t : Fin cfg0.N) (p : Fin 5000) (l : Fin 512) (r : Fin 100000)
    (hr : r.val = win0_5.index t (0 : Fin 2) * 5000 + p.val) :
    featBlk m c t (ix2 p l) = m ((c : Thread nD τ).loc main_arg0) (ix2 r l) := by
  obtain ⟨e0, e1, -⟩ := idx_facts t
  rw [← V_main_arg0 m c]
  show V m c main_arg0 (((cfg0.win 0).blk t).view.emb (ix2 p l)) = V m c main_arg0 (ix2 r l)
  have h : ((cfg0.win 0).blk t).view.emb (ix2 p l) = ix2 r l := by
    funext a; apply Fin.ext
    match a with
    | ⟨0, _⟩ => show win0_0.index t (0 : Fin 2) * 5000 + 1 * p.val = r.val; omega
    | ⟨1, _⟩ => show win0_0.index t (1 : Fin 2) * 512 + 1 * l.val = l.val; omega
  rw [h]

/-- The first weight matrix is held whole. -/
theorem w1Blk_eq (c : Dev nD) (t : Fin cfg0.N) : w1Blk m c t = m ((c : Thread nD τ).loc main_arg4) := by
  obtain ⟨-, -, e2, e3, -⟩ := idx_facts t
  rw [← V_main_arg4 m c]
  funext y
  show V m c main_arg4 (((cfg0.win 1).blk t).view.emb y) = V m c main_arg4 y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 32 + 1 * (y 1).val = (y 1).val; omega
  rw [h]

/-- The second weight matrix is held whole. -/
theorem w2Blk_eq (c : Dev nD) (t : Fin cfg0.N) : w2Blk m c t = m ((c : Thread nD τ).loc main_arg6) := by
  obtain ⟨-, -, -, -, -, -, e6, e7, -⟩ := idx_facts t
  rw [← V_main_arg6 m c]
  funext y
  show V m c main_arg6 (((cfg0.win 3).blk t).view.emb y) = V m c main_arg6 y
  have h : ((cfg0.win 3).blk t).view.emb y = y := by
    funext a; apply Fin.ext
    match a with
    | ⟨0, _⟩ => show win0_3.index t (0 : Fin 2) * 32 + 1 * (y 0).val = (y 0).val; omega
    | ⟨1, _⟩ => show win0_3.index t (1 : Fin 2) * 16 + 1 * (y 1).val = (y 1).val; omega
  rw [h]

/-- The first bias row at k is the first bias vector at k. -/
theorem b1Blk_apply (c : Dev nD) (t : Fin cfg0.N) (k : Fin 32) :
    b1Blk m c t (ix2 (0 : Fin 1) k) = m ((c : Thread nD τ).loc main_arg5) (ix1 k) := by
  obtain ⟨-, -, -, -, e4, e5, -⟩ := idx_facts t
  show V m c main_v0 (((cfg0.win 2).blk t).view.emb (ix2 (0 : Fin 1) k)) = _
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 32 + 1 * k.val = k.val; omega
  rw [h, V_bias1]
  exact shapeCast_a_1a_apply _ shapeCasts_S32_S1x32 0 k

/-- The second bias row at q is the second bias vector at q. -/
theorem b2Blk_apply (c : Dev nD) (t : Fin cfg0.N) (q : Fin 16) :
    b2Blk m c t (ix2 (0 : Fin 1) q) = m ((c : Thread nD τ).loc main_arg7) (ix1 q) := by
  obtain ⟨-, -, -, -, -, -, -, -, e8, e9, -⟩ := idx_facts t
  show V m c main_v1 (((cfg0.win 4).blk t).view.emb (ix2 (0 : Fin 1) q)) = _
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 16 + 1 * q.val = q.val; omega
  rw [h, V_bias2]
  exact shapeCast_a_1a_apply _ shapeCasts_S16_S1x16 0 q

/-! ## What a point writes back -/

/-- Entry j of the value point t stores is the node output at the place of the array where that entry is written. -/
theorem stored_apply (c : Dev nD) (t : Fin cfg0.N) (j : S5000x16.Idx) :
    k0_pay1 (F := Ideal) (featBlk m c t) (w1Blk m c t) (b1Blk m c t) (w2Blk m c t) (b2Blk m c t) j
      = nodesOf m c (((cfg0.win 5).blk t).view.emb j) := by
  obtain ⟨p, q, rfl⟩ : ∃ (p : Fin 5000) (q : Fin 16), j = ix2 p q := ⟨j 0, j 1, eq_ix2 j⟩
  obtain ⟨-, -, -, -, -, -, -, -, -, -, e10, e11⟩ := idx_facts t
  have hp : p.val < 5000 := p.isLt
  have h : ((cfg0.win 5).blk t).view.emb (ix2 p q)
      = ix2 (⟨win0_5.index t (0 : Fin 2) * 5000 + p.val, by omega⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 16 + 1 * q.val = q.val; omega
  rw [h]
  refine (pay_apply (featBlk m c t) (w1Blk m c t) (b1Blk m c t) (w2Blk m c t) (b2Blk m c t) p q).trans
    (Eq.trans ?_ (Cert.NodeMlp.nodes_apply _ _ _ _ _ ⟨win0_5.index t (0 : Fin 2) * 5000 + p.val, by omega⟩ q).symm)
  rw [w1Blk_eq, w2Blk_eq,
    funext fun l => featBlk_apply m c t p l ⟨win0_5.index t (0 : Fin 2) * 5000 + p.val, by omega⟩ rfl,
    funext fun k => b1Blk_apply m c t k, funext fun q => b2Blk_apply m c t q]

/-- WHAT POINT t WRITES BACK is block t of the node outputs. -/
theorem flushed_nodes (c : Dev nD) (t : Fin cfg0.N) :
    (dats m 0 c).flushed 5 t = ((cfg0.win 5).blk t).view.read (Elt Ideal) (nodesOf m c) := by
  show (cfg0.win 5).cut (grid0.coords t) ((dats m 0 c).after 5 t) = _
  rw [after0_5]
  unfold out0_5
  rw [View.canon_unit_zero hz]
  simp only [View.ld_unit_zero (S := S5000x512) hz, View.ld_unit_zero (S := S512x32) hz, View.ld_unit_zero (S := S1x32) hz,
    View.ld_unit_zero (S := S32x16) hz, View.ld_unit_zero (S := S1x16) hz]
  funext j
  exact stored_apply m c t j

/-! ## The cover, and the array after the run -/

/-- An index of the array is in point t's block iff each coordinate is in the block's range on its axis. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v2).slice (win0_5.rect t)).set ↔ _
  rw [View.set_slice_whole, Rect.mem_set_unit]
  exact Iff.rfl

/-- Every row is in the block of the point numbered by the row's quotient by 5000. -/
theorem covered (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

/-- THE ARRAY AFTER THE REGION holds the node outputs. -/
theorem final_nodes (c : Dev nD) : (dats m 0 c).arrAt 5 cfg0.N = nodesOf m c :=
  (dats m 0 c).arrAt_eq_of_cover 5 (nodesOf m c) (fun t _ => flushed_nodes m c t) covered

end Cert.KernelIdeal.NodeValue

end
-- ==== Proof.KernelRun.lean ====
/-
  The kernel program's result, and its run.

  After the region the program runs the same aggregation over the edges as the reference: wrap a negative source
  index, gather the source rows of the region's output array, scale by the edge weight, scatter-add into the
  destination rows. The region's output array holds the node outputs (Proof/KernelNodes.lean) and no line before or
  after the region writes an argument, so the result buffer ends at the reference's `aggregate`
  (Proof/RefNode.lean) of the node outputs and the three edge arrays as launched. The aggregation itself is never
  opened: the two programs' lines are the same operations with the same dimension records.
-/
import proofs.«156494_j35957466202228_1_alg».proof.Proof.KernelNodes
import proofs.«156494_j35957466202228_1_alg».proof.Proof.RefNode

set_option maxRecDepth 16384

noncomputable section

namespace Cert.KernelIdeal.NodeValue

open Cert.KernelIdeal Cert.KernelIdeal.Gen Idealize.ShloMosaic Idealize.ShloMosaic.TcCoe Idealize.ShloMosaic.Tactic
open Idealize.ShloMosaic.ValueIdx Idealize.SL Idealize.SL.Sem
open Idealize.ShloMosaic.Pipeline (Dat Cfg Window)

variable (m : (ℓ : Loc nD τ sig) → Buf (Elt Ideal) ℓ) (ρ : Dev nD → PrngReg)

/-- The aggregation of the node outputs over the edges as launched: what both programs end holding. -/
abbrev resultOf (c : Dev nD) : S100000x16.Idx → Elt Ideal .f32 :=
  Cert.ReferenceIdeal.RefValue.aggregate (F := Ideal) (nodesOf m c) (m ((c : Thread nD τ).loc main_arg1)) (m ((c : Thread nD τ).loc main_arg2)) (m ((c : Thread nD τ).loc main_arg3))

set_option maxHeartbeats 4000000 in
/-- The result buffer after the lines that follow the region. -/
theorem tail_result (c : Dev nD) :
    Pipeline.afterTail₀ cfgs (dats m) 0 (V0 m) [hostOps1] c main_v15 = resultOf m c := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v2)
        = (dats m 0 c).arrAt 5 cfg0.N from
      Pipeline.withArrays_arr spec0 launch0.win.arr_inj c (V0 m c) (fun w => (dats m 0 c).arrAt w cfg0.N) 5,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    final_nodes,
    show V0 m c (Proc.devRef .tc main_arg1) = m ((c : Thread nD τ).loc main_arg1) from V_main_arg1 m c,
    show V0 m c (Proc.devRef .tc main_arg2) = m ((c : Thread nD τ).loc main_arg2) from V_main_arg2 m c,
    show V0 m c (Proc.devRef .tc main_arg3) = m ((c : Thread nD τ).loc main_arg3) from V_main_arg3 m c]
  rfl

/-- The arguments after the run are the arguments as launched: the windows' input arrays are never written back, and
    no line before or after the region writes one of the others. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 1).trans (((dats m 0 c).arrAt_in 1 rfl _).trans ((A_eq m c 1).trans (V_main_arg4 m c))),
    ((h c).2 main_arg5 (Pipeline.mem_restRefs_of main_arg5 (by decide) (by decide))).trans (W_main_arg5 m (dats m) c),
    ((h c).1 3).trans (((dats m 0 c).arrAt_in 3 rfl _).trans ((A_eq m c 3).trans (V_main_arg6 m c))),
    ((h c).2 main_arg7 (Pipeline.mem_restRefs_of main_arg7 (by decide) (by decide))).trans (W_main_arg7 m (dats m) c)⟩

/-- THE RUN of the idealized kernel program: every weakly fair execution terminates with the result buffer at the
    aggregation of the node outputs and the arguments unchanged. -/
theorem run : θ_run defs (onTc (τ := τ) (main (F := Ideal))) ⟨m, fun _ => 0, ρ⟩ fun r => ∀ c : Dev nD,
      r.2.mem ((c.tc : Thread nD τ).loc main_v15) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨((h c).2 main_v15 (Pipeline.mem_restRefs_of main_v15 (by decide) (by decide))).trans (tail_result m c), kept m r h c⟩)
    (run_main m ρ)

end Cert.KernelIdeal.NodeValue

end
-- ==== Proof.lean ====
/-
  A graph layer: a two-layer perceptron on every node's feature row, then a weighted sum over the edges.

  Both programs take a feature matrix (100000 nodes × 512 features), two weight matrices (512 × 32, 32 × 16) with their
  biases, and 3200000 edges given as destination row, source column and weight. The reference computes, on the host,
  nodes = max (features · W1 + b1) 0 · W2 + b2 and then out[r] = Σ over edges e with row e = r of w e · nodes[col e]
  (a gather of the source rows, a product with the weights, a scatter-add into a zero array). The kernel program
  computes `nodes` in one region of 20 grid points, each holding 5000 rows, both weight matrices and both biases,
  rounding the operands of its two matrix products to a narrower float format; the edge aggregation follows on the host,
  the same lines as the reference's.

  Over the extended reals a change of float format is the identity and a matrix product is the exact sum over the
  contracted coordinate, so each point's block is the reference's `nodes` on its 5000 rows, entry by entry
  (Proof/NodeMlp.lean states the function, Proof/KernelBlock.lean reads the kernel body at an index, Proof/RefNode.lean the
  reference); the 20 blocks cover the array (Proof/KernelNodes.lean); and the aggregation is one function applied on both
  sides to equal node outputs and equal edge arrays (Proof/KernelRun.lean), never opened. No law used needs the inputs
  finite: sums are only re-indexed, never distributed over.

  The three frames are the generated frame certificates (the kernel program's at both instances) and the reference's
  generated run with its result dropped. The idealization rewrote nothing, so `preserves` has nothing to state.
-/
import proofs.«156494_j35957466202228_1_alg».proof.Defs
import proofs.«156494_j35957466202228_1_alg».proof.Proof.Gen.Kernel
import proofs.«156494_j35957466202228_1_alg».proof.Proof.Gen.Kernel.Skeleton
import proofs.«156494_j35957466202228_1_alg».proof.Proof.Gen.Kernel.Launch
import proofs.«156494_j35957466202228_1_alg».proof.Proof.Gen.Kernel.Points
import proofs.«156494_j35957466202228_1_alg».proof.Proof.Gen.Kernel.Frame
import proofs.«156494_j35957466202228_1_alg».proof.Proof.Gen.KernelIdeal
import proofs.«156494_j35957466202228_1_alg».proof.Proof.Gen.KernelIdeal.Skeleton
import proofs.«156494_j35957466202228_1_alg».proof.Proof.Gen.KernelIdeal.Launch
import proofs.«156494_j35957466202228_1_alg».proof.Proof.Gen.KernelIdeal.Points
import proofs.«156494_j35957466202228_1_alg».proof.Proof.Gen.KernelIdeal.Frame
import proofs.«156494_j35957466202228_1_alg».proof.Proof.Gen.ReferenceIdeal
import proofs.«156494_j35957466202228_1_alg».proof.Proof.Gen.Pre_finite_inputs
import proofs.«156494_j35957466202228_1_alg».proof.Proof.Gen.ReferenceIdeal.Run
import proofs.«156494_j35957466202228_1_alg».proof.Proof.Gen.ReferenceIdeal.Read
import proofs.«156494_j35957466202228_1_alg».proof.Proof.RefNode
import proofs.«156494_j35957466202228_1_alg».proof.Proof.KernelRun
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end holding the aggregation over the edges of the same node outputs: the kernel
    program's run states it of its own arguments; the reference's result is the same aggregation of its node outputs,
    which are the same function of arguments that agree. -/
theorem algebraic : Cert.algebraic_KernelIdeal_ReferenceIdeal := by
  intro m ρ m' ρ' _ hagree
  refine ⟨fun c => Cert.KernelIdeal.NodeValue.resultOf m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, Cert.ReferenceIdeal.RefValue.result_eq, Cert.ReferenceIdeal.RefValue.nodes_eq,
    a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
